-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x40 .f32 := Host.absf main_arg6
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S1x40 : Shape := ⟨2, ![1, 40]⟩
abbrev S10000 : Shape := ⟨1, ![10000]⟩
abbrev S10000x1 : Shape := ⟨2, ![10000, 1]⟩
abbrev S400x10000 : Shape := ⟨2, ![400, 10000]⟩
abbrev S400x128 : Shape := ⟨2, ![400, 128]⟩
abbrev S10000x40 : Shape := ⟨2, ![10000, 40]⟩
abbrev S400x40 : Shape := ⟨2, ![400, 40]⟩
abbrev S400 : Shape := ⟨1, ![400]⟩
abbrev S400x1 : Shape := ⟨2, ![400, 1]⟩

abbrev nBuf : Space → Nat
  | .hbm => 15
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x128, .f32⟩
  | .hbm, ⟨9, _⟩ => ⟨S1x128, .f32⟩
  | .hbm, ⟨10, _⟩ => ⟨S1x40, .f32⟩
  | .hbm, ⟨11, _⟩ => ⟨S10000x128, .bf16⟩
  | .hbm, ⟨12, _⟩ => ⟨S10000x128, .bf16⟩
  | .hbm, ⟨13, _⟩ => ⟨S10000x128, .f32⟩
  | .hbm, ⟨14, _⟩ => ⟨S10000x40, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S10000x128, .bf16⟩
  | .local _ .vmem, ⟨4, _⟩ => ⟨S400x10000, .f32⟩
  | .local _ .vmem, ⟨5, _⟩ => ⟨S400x10000, .f32⟩
  | .local _ .vmem, ⟨6, _⟩ => ⟨S10000x128, .bf16⟩
  | .local _ .vmem, ⟨7, _⟩ => ⟨S128x128, .f32⟩
  | .local _ .vmem, ⟨8, _⟩ => ⟨S1x128, .f32⟩
  | .local _ .vmem, ⟨9, _⟩ => ⟨S400x128, .bf16⟩
  | .local _ .vmem, ⟨10, _⟩ => ⟨S400x128, .bf16⟩
  | .local _ .vmem, ⟨11, _⟩ => ⟨S400x10000, .f32⟩
  | .local _ .vmem, ⟨12, _⟩ => ⟨S400x10000, .f32⟩
  | .local _ .vmem, ⟨13, _⟩ => ⟨S10000x128, .bf16⟩
  | .local _ .vmem, ⟨14, _⟩ => ⟨S128x40, .f32⟩
  | .local _ .vmem, ⟨15, _⟩ => ⟨S1x40, .f32⟩
  | .local _ .vmem, ⟨16, _⟩ => ⟨S400x128, .f32⟩
  | .local _ .vmem, ⟨17, _⟩ => ⟨S400x128, .f32⟩
  | .local _ .vmem, ⟨18, _⟩ => ⟨S400x40, .f32⟩
  | .local _ .vmem, ⟨19, _⟩ => ⟨S400x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S128_S1x128 : S128.ShapeCasts S1x128
  shapeCasts_S40_S1x40 : S40.ShapeCasts S1x40
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  reduces_S400x128_S400 : S400x128.Reduces [1] S400
  shapeCasts_S400_S400x1 : S400.ShapeCasts S400x1
  broadcasts_S400x1_S400x128 : S400x1.Broadcasts S400x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  broadcasts_S400x1_S400x40 : S400x1.Broadcasts S400x40
  inb_S400x40_S400x40_0_0 : ∀ a, (![0, 0] : Fin 2 → Nat) a + S400x40.size a ≤ S400x40.size a
  h_S400x40 : 0 < S400x40.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x40_S400x40_1_0_0_1_n_n_wf : DotDims.WF S400x128 S128x40 S400x40 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .bf16 = 32 ∨ (Rect.block (s := S10000x128) S400x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x40.size a ≤ S10000x40.size a
  hwx2_5 : ∀ i : grid2.Coords, EltTy.bits .f32 = 32 ∨ (Rect.block (s := S10000x40) S400x40.size (cc2_transform_5 i) (hinb2_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x40_S400x40_1_0_0_1_n_n : DotDims S400x128 S128x40 S400x40 where
  lhsContracting := [1]
  rhsContracting := [0]
  lhsNonContracting := [0]
  rhsNonContracting := [1]
  lhsBatch := []
  rhsBatch := []
  wf := dot_S400x128_S128x40_S400x40_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v3) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5_0) S400x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v5_1) S400x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S10000 : Shape := ⟨1, ![10000]⟩
abbrev S10000x1 : Shape := ⟨2, ![10000, 1]⟩
abbrev S1x128 : Shape := ⟨2, ![1, 128]⟩
abbrev S10000x40 : Shape := ⟨2, ![10000, 40]⟩
abbrev S1x40 : Shape := ⟨2, ![1, 40]⟩

abbrev nBuf : Space → Nat
  | .hbm => 59
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S10000x128, .f32⟩
  | .hbm, ⟨9, _⟩ => ⟨S_, .f32⟩
  | .hbm, ⟨10, _⟩ => ⟨S10000, .f32⟩
  | .hbm, ⟨11, _⟩ => ⟨S10000x1, .f32⟩
  | .hbm, ⟨12, _⟩ => ⟨S10000x1, .f32⟩
  | .hbm, ⟨13, _⟩ => ⟨S_, .f32⟩
  | .hbm, ⟨14, _⟩ => ⟨S10000x1, .f32⟩
  | .hbm, ⟨15, _⟩ => ⟨S10000x1, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S1x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S_, .f32⟩
  | .hbm, ⟨33, _⟩ => ⟨S10000, .f32⟩
  | .hbm, ⟨34, _⟩ => ⟨S10000x1, .f32⟩
  | .hbm, ⟨35, _⟩ => ⟨S10000x1, .f32⟩
  | .hbm, ⟨36, _⟩ => ⟨S_, .f32⟩
  | .hbm, ⟨37, _⟩ => ⟨S10000x1, .f32⟩
  | .hbm, ⟨38, _⟩ => ⟨S10000x1, .f32⟩
  | .hbm, ⟨39, _⟩ => ⟨S10000x128, .f32⟩
  | .hbm, ⟨40, _⟩ => ⟨S10000x128, .f32⟩
  | .hbm, ⟨41, _⟩ => ⟨S10000x40, .f32⟩
  | .hbm, ⟨42, _⟩ => ⟨S1x40, .f32⟩
  | .hbm, ⟨43, _⟩ => ⟨S10000x40, .f32⟩
  | .hbm, ⟨44, _⟩ => ⟨S10000x40, .f32⟩
  | .hbm, ⟨45, _⟩ => ⟨S_, .f32⟩
  | .hbm, ⟨46, _⟩ => ⟨S10000, .f32⟩
  | .hbm, ⟨47, _⟩ => ⟨S_, .f32⟩
  | .hbm, ⟨48, _⟩ => ⟨S10000, .f32⟩
  | .hbm, ⟨49, _⟩ => ⟨S10000, .f32⟩
  | .hbm, ⟨50, _⟩ => ⟨S10000x1, .f32⟩
  | .hbm, ⟨51, _⟩ => ⟨S10000x40, .f32⟩
  | .hbm, ⟨52, _⟩ => ⟨S10000x40, .f32⟩
  | .hbm, ⟨53, _⟩ => ⟨S10000x40, .f32⟩
  | .hbm, ⟨54, _⟩ => ⟨S_, .f32⟩
  | .hbm, ⟨55, _⟩ => ⟨S10000, .f32⟩
  | .hbm, ⟨56, _⟩ => ⟨S10000x1, .f32⟩
  | .hbm, ⟨57, _⟩ => ⟨S10000x40, .f32⟩
  | .hbm, ⟨58, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  bcast_S_S10000 : S_.BroadcastsInDim S10000 (![] : Fin 0 → Fin S10000.rank)
  bcast_S10000x1_S10000x40_0_1 : S10000x1.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x40_S10000x40_1_0_0_1_n_n_wf : DotDims.WF S10000x128 S128x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.LibRowOps.lean ====
/-
  Rows of a matrix over the extended reals.

  A dense layer, a row normalisation and a row softmax all act on a matrix one row at a time: the entry at
  (r, j) of the result depends on row r of the operand only (and on whole weight matrices). This file names
  those row functions once and reads the vector operations that compute them — an elementwise product summed
  along the lanes, the square root, the maximum against a floor, a quotient, a matrix product into a zero
  accumulator, a bias row broadcast over the rows, a lane maximum, the exponential — at an index (r, j), for
  any number of rows. The same lemma then serves a block of a few rows and the whole array.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## The row functions -/

/-- The floor under a row's norm: the float whose word is 0x2B8CBCCC, the float nearest to 10⁻¹². -/
def normFloor : EReal := Ideal.ofBits .f32 0x2B8CBCCC#32

/-- The word of −∞: where a running maximum starts. -/
def negInf : EReal := Ideal.ofBits .f32 0xFF800000#32

/-- A row divided by its Euclidean norm, the norm taken no smaller than the floor. -/
def unitRow {n : ℕ} (v : Fin n → EReal) (j : Fin n) : EReal :=
  Ideal.div (v j) (max (Ideal.sqrt (∑ k, v k * v k)) normFloor)

/-- A row times a weight matrix, plus a bias row. -/
def affineRow {n p : ℕ} (v : Fin n → EReal) (W : Fin n → Fin p → EReal) (b : Fin p → EReal) (q : Fin p) : EReal :=
  (∑ k, v k * W k q) + b q

/-- A row of weights against the columns of a matrix: entry j is the weighted sum of column j. -/
def mixRow {n p : ℕ} (a : Fin n → EReal) (T : Fin n → Fin p → EReal) (j : Fin p) : EReal :=
  ∑ k, a k * T k j

/-- The positive part of a row. -/
def reluRow {p : ℕ} (v : Fin p → EReal) (j : Fin p) : EReal := max (v j) 0

/-- The largest entry of a row, starting from −∞. -/
def rowMax {p : ℕ} (l : Fin p → EReal) : EReal := (Finset.univ : Finset (Fin p)).fold max negInf l

/-- The softmax of a row, shifted by its largest entry. -/
def softRow {p : ℕ} (l : Fin p → EReal) (q : Fin p) : EReal :=
  Ideal.div (Ideal.exp (l q - rowMax l)) (∑ q', Ideal.exp (l q' - rowMax l))

/-! ## Arrays and their coordinates -/

/-- A rank-2 array as a function of its two coordinates. -/
def mat {a b : ℕ} (x : (⟨2, ![a, b]⟩ : Shape).Idx → EReal) (r : Fin a) (k : Fin b) : EReal := x (ix2 r k)
/-- The one row of a [1, b] array. -/
def row1 {b : ℕ} (x : (⟨2, ![1, b]⟩ : Shape).Idx → EReal) (k : Fin b) : EReal := x (ix2 (0 : Fin 1) k)
/-- A rank-1 array as a function of its coordinate. -/
def vec {b : ℕ} (x : (⟨1, ![b]⟩ : Shape).Idx → EReal) (k : Fin b) : EReal := x (ix1 k)
/-- The rank-2 array with the given entries. -/
def arr2 {a b : ℕ} (g : Fin a → Fin b → EReal) : (⟨2, ![a, b]⟩ : Shape).Idx → EReal :=
  fun i => g ⟨(i 0).val, idx2_lt0 i⟩ ⟨(i 1).val, idx2_lt1 i⟩

theorem arr2_ix2 {a b : ℕ} (g : Fin a → Fin b → EReal) (r : Fin a) (k : Fin b) : arr2 g (ix2 r k) = g r k := rfl
theorem mat_arr2 {a b : ℕ} (g : Fin a → Fin b → EReal) : mat (arr2 g) = g := rfl
theorem arr2_mat {a b : ℕ} (x : (⟨2, ![a, b]⟩ : Shape).Idx → EReal) : arr2 (mat x) = x :=
  funext fun i => (congrArg x (eq_ix2 i)).symm

/-! ## Layout: a column made from a vector, a column spread over the lanes -/

section Layout
variable {α : Type}

/-- An [a] array cast to [a, 1] reads, at (r, u), the operand at r. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An [a, 1] column broadcast to [a, b] reads, at (r, c), the column at r. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Reductions along the lanes, read at a row -/

/-- The reduced index r with lane k put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum at row r is the sum of the row's entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

/-- A lane maximum at row r is the running maximum of the row's entries from the accumulator's value. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f (Finset.univ : Finset (Fin b)))
    (funext fun k => congrArg src (lift_row h r k))

/-- The host's reduce with a maximum body along the lanes, at row r: the same running maximum from the initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu]
  have hi : init (Shape.Idx.first hu) = init ix0 := congrArg init (eq_ix0 _)
  rw [hi]
  exact congrArg (fun f => Finset.fold max (init ix0) f (Finset.univ : Finset (Fin b)))
    (funext fun k => congrArg x (lift_row h r k))

/-- −∞ is below everything: a maximum against it changes nothing. -/
theorem max_negInf (y : EReal) : max negInf y = y := by
  unfold negInf; simp [Ideal.ofBits, Ideal.ieee]

/-! ## A matrix product into a zero accumulator, read at an entry -/

theorem plain_lhs_0 {M K N : ℕ} (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 {M K N : ℕ} (i : (⟨2, ![M, N]⟩ : Shape).Idx) (q : (DotDims.plain M K N).contr.Idx) :
    ((DotDims.plain M K N).lhsIdx i q 1).val = (q ⟨0, (show 0 < (DotDims.plain M K N).contr.rank from Nat.one_pos)⟩).val :=
  (DotDims.plain M K N).lhsIdx_val_of_single rfl i q
theorem plain_rhs_0 {M K N : ℕ} (i : (⟨2, ![M, N]⟩ : Shape).Idx) (q : (DotDims.plain M K N).contr.Idx) :
    ((DotDims.plain M K N).rhsIdx i q 0).val = (q ⟨0, (show 0 < (DotDims.plain M K N).contr.rank from Nat.one_pos)⟩).val :=
  (DotDims.plain M K N).rhsIdx_val_of_single rfl i q
theorem plain_rhs_1 {M K N : ℕ} (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- An [M, K] by [K, N] product into a zero accumulator, at (p, q): the sum over k of left (p, k) times right (k, q). -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-! ## The composite row operations, as the vector operations spell them -/

/-- Every row divided by the larger of its norm and the floor, at (r, j). -/
theorem unitRows_apply {a b : ℕ} (x : FVec Ideal ⟨2, ![a, b]⟩ .f32)
    (hred : (⟨2, ![a, b]⟩ : Shape).Reduces [1] (⟨1, ![a]⟩ : Shape)) (hφ : FKind.Formats .f32)
    (hacc : (0x00000000#32 : BitVec 32) = FKind.add.neutral .f32 hφ)
    (hsc : (⟨1, ![a]⟩ : Shape).ShapeCasts ⟨2, ![a, 1]⟩) (hbc : (⟨2, ![a, 1]⟩ : Shape).Broadcasts ⟨2, ![a, b]⟩)
    (r : Fin a) (j : Fin b) :
    divf x (broadcastTo ⟨2, ![a, b]⟩ (maximumf (sqrt (shapeCast ⟨2, ![a, 1]⟩
        (multiReduction .add [1] ⟨1, ![a]⟩ (mulf x x) 0x00000000#32 hred hφ hacc) hsc))
      (broadcast ⟨2, ![a, 1]⟩ (Scalar.ofBits .f32 0x2B8CBCCC#32))) hbc) (ix2 r j)
      = unitRow (fun k => x (ix2 r k)) j := by
  show Ideal.div (x (ix2 r j)) (broadcastTo ⟨2, ![a, b]⟩ _ hbc (ix2 r j)) = _
  rw [broadcastTo_a1_ab_apply]
  show Ideal.div (x (ix2 r j)) (max (Ideal.sqrt (shapeCast ⟨2, ![a, 1]⟩ _ hsc (ix2 r (0 : Fin 1)))) (Ideal.ofBits .f32 0x2B8CBCCC#32)) = _
  rw [shapeCast_a_a1_apply, rowSum_apply]
  rfl

/-- A product with a weight matrix into a zero accumulator, at (r, j): the row against the matrix's columns. -/
theorem mixRows_apply {a K n : ℕ} {φ₁ φ₂ : FTy} (d : DotDims ⟨2, ![a, K]⟩ ⟨2, ![K, n]⟩ ⟨2, ![a, n]⟩) (hd : d = DotDims.plain a K n)
    (prec : Option ContractPrecision) (x : FVec Ideal ⟨2, ![a, K]⟩ φ₁) (T : FVec Ideal ⟨2, ![K, n]⟩ φ₂) (r : Fin a) (j : Fin n) :
    matmul d prec x T (constant ⟨2, ![a, n]⟩ .f32 0x00000000#32) (ix2 r j) = mixRow (fun k => x (ix2 r k)) (mat T) j := by
  subst hd
  exact matmul_plain_zero_apply prec x T r j

/-- The same product plus a bias row spread over the rows, at (r, q). -/
theorem affineRows_apply {a K n : ℕ} {φ₁ φ₂ : FTy} (d : DotDims ⟨2, ![a, K]⟩ ⟨2, ![K, n]⟩ ⟨2, ![a, n]⟩) (hd : d = DotDims.plain a K n)
    (prec : Option ContractPrecision) (y : FVec Ideal ⟨2, ![a, K]⟩ φ₁) (w : FVec Ideal ⟨2, ![K, n]⟩ φ₂)
    (bias : FVec Ideal ⟨2, ![1, n]⟩ .f32) (hsc : (⟨2, ![1, n]⟩ : Shape).ShapeCasts ⟨2, ![1, n]⟩)
    (hbc : (⟨2, ![1, n]⟩ : Shape).Broadcasts ⟨2, ![a, n]⟩) (r : Fin a) (q : Fin n) :
    addf (matmul d prec y w (constant ⟨2, ![a, n]⟩ .f32 0x00000000#32))
        (broadcastTo ⟨2, ![a, n]⟩ (shapeCast ⟨2, ![1, n]⟩ bias hsc) hbc) (ix2 r q)
      = affineRow (fun k => y (ix2 r k)) (mat w) (row1 bias) q := by
  subst hd
  show FloatOps.matmul _ prec y w _ (ix2 r q) + broadcastTo ⟨2, ![a, n]⟩ _ hbc (ix2 r q) = _
  rw [matmul_plain_zero_apply, broadcastTo_1b_ab_apply, shapeCast_self]
  rfl

/-- The maximum against a zero splat, at (r, j): the row's positive part. -/
theorem reluRows_apply {a b : ℕ} (y : FVec Ideal ⟨2, ![a, b]⟩ .f32) (r : Fin a) (j : Fin b) :
    maximumf y (broadcast ⟨2, ![a, b]⟩ (Scalar.ofBits .f32 0x00000000#32)) (ix2 r j) = reluRow (fun j' => y (ix2 r j')) j := by
  show max (y (ix2 r j)) (Ideal.ofBits .f32 0x00000000#32) = max (y (ix2 r j)) 0
  rw [Ideal.ofBits_zero_f32]

/-- The shifted softmax along the lanes, at (r, q). -/
theorem softRows_apply {a n : ℕ} (l : FVec Ideal ⟨2, ![a, n]⟩ .f32)
    (hred : (⟨2, ![a, n]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ)
    (hsc : (⟨1, ![a]⟩ : Shape).ShapeCasts ⟨2, ![a, 1]⟩) (hbc : (⟨2, ![a, 1]⟩ : Shape).Broadcasts ⟨2, ![a, n]⟩)
    (r : Fin a) (q : Fin n) :
    divf (exp (subf l (broadcastTo ⟨2, ![a, n]⟩ (shapeCast ⟨2, ![a, 1]⟩
          (multiReduction .maximumf [1] ⟨1, ![a]⟩ l 0xFF800000#32 hred hφ hmax) hsc) hbc)))
      (broadcastTo ⟨2, ![a, n]⟩ (shapeCast ⟨2, ![a, 1]⟩ (multiReduction .add [1] ⟨1, ![a]⟩
        (exp (subf l (broadcastTo ⟨2, ![a, n]⟩ (shapeCast ⟨2, ![a, 1]⟩
          (multiReduction .maximumf [1] ⟨1, ![a]⟩ l 0xFF800000#32 hred hφ hmax) hsc) hbc)))
        0x00000000#32 hred hφ hadd) hsc) hbc) (ix2 r q)
      = softRow (fun q' => l (ix2 r q')) q := by
  have hE : ∀ q' : Fin n, exp (subf l (broadcastTo ⟨2, ![a, n]⟩ (shapeCast ⟨2, ![a, 1]⟩
        (multiReduction .maximumf [1] ⟨1, ![a]⟩ l 0xFF800000#32 hred hφ hmax) hsc) hbc)) (ix2 r q')
      = Ideal.exp (l (ix2 r q') - rowMax (fun q'' => l (ix2 r q''))) := by
    intro q'
    show Ideal.exp (l (ix2 r q') - broadcastTo ⟨2, ![a, n]⟩ _ hbc (ix2 r q')) = _
    rw [broadcastTo_a1_ab_apply, shapeCast_a_a1_apply, rowMax_apply]
    rfl
  rw [divf_apply, broadcastTo_a1_ab_apply, shapeCast_a_a1_apply, rowSum_apply, hE q]
  unfold softRow
  exact congrArg _ (Finset.sum_congr rfl fun q' _ => hE q')

end Cert.RowOps

end
-- ==== Proof.KernelPayloads.lean ====
/-
  What each kernel body computes, entry by entry, at the extended reals.

  The first kernel normalises every row of the features and applies the first dense layer; the second takes a
  block of rows of the adjacency matrix, mixes the first layer's rows with them, keeps the positive part and
  applies the second dense layer; the third mixes the second layer's rows with the same block of the
  adjacency, normalises each row (its first result) and, from that, applies the output layer and a softmax
  along the classes (its second result). Every entry (p, q) of a result depends on row p of the block only;
  the narrowing to bf16 and the cast of a shape to itself are the identity here.
-/
import proofs.«129005_g58506044506602_cont_9to1_m_1044_2_alg».proof.Proof.Gen.KernelIdeal.Skeleton
import proofs.«129005_g58506044506602_cont_9to1_m_1044_2_alg».proof.Proof.LibRowOps

noncomputable section

namespace Cert.KernelIdeal.Rows

open Cert.KernelIdeal Cert.KernelIdeal.Gen Cert.RowOps
open Idealize.ShloMosaic Idealize.ShloMosaic.ValueIdx

/-- The first kernel's result at (r, j): row r of the features, normalised, through the first dense layer. -/
theorem prep_at (x0 : Vec Ideal S10000x128 .f32) (x1 : Vec Ideal S128x128 .f32) (x2 : Vec Ideal S1x128 .f32)
    (r : Fin 10000) (j : Fin 128) :
    k0_pay1 (F := Ideal) x0 x1 x2 (ix2 r j) = affineRow (unitRow (fun k => x0 (ix2 r k))) (mat x1) (row1 x2) j := by
  unfold k0_pay1
  refine (affineRows_apply _ rfl _ _ x1 x2 _ _ r j).trans ?_
  exact congrArg (fun v => affineRow v (mat x1) (row1 x2) j) (funext fun k => unitRows_apply x0 _ _ _ _ _ r k)

/-- The second kernel's result at (p, q): row p of the adjacency block against the first layer's rows, its
    positive part through the second dense layer. -/
theorem layer1_at (x0 : Vec Ideal S400x10000 .f32) (x1 : Vec Ideal S10000x128 .bf16) (x2 : Vec Ideal S128x128 .f32)
    (x3 : Vec Ideal S1x128 .f32) (p : Fin 400) (q : Fin 128) :
    k1_pay1 (F := Ideal) x0 x1 x2 x3 (ix2 p q)
      = affineRow (reluRow (mixRow (fun k => x0 (ix2 p k)) (mat x1))) (mat x2) (row1 x3) q := by
  unfold k1_pay1
  refine (affineRows_apply _ rfl _ _ x2 x3 _ _ p q).trans ?_
  refine congrArg (fun v => affineRow v (mat x2) (row1 x3) q) (funext fun j => ?_)
  refine (reluRows_apply _ p j).trans ?_
  refine congrArg (fun v => reluRow v j) (funext fun j' => ?_)
  refine (mixRows_apply _ rfl _ _ _ p j').trans ?_
  rw [shapeCast_self]
  rfl

/-- The third kernel's first result at (p, j): row p of the adjacency block against the second layer's rows,
    normalised. -/
theorem layer2_h_at (x0 : Vec Ideal S400x10000 .f32) (x1 : Vec Ideal S10000x128 .bf16) (p : Fin 400) (j : Fin 128) :
    k2_pay1 (F := Ideal) x0 x1 (ix2 p j) = unitRow (mixRow (fun k => x0 (ix2 p k)) (mat x1)) j := by
  unfold k2_pay1
  refine (unitRows_apply _ _ _ _ _ _ p j).trans ?_
  refine congrArg (fun v => unitRow v j) (funext fun j' => ?_)
  refine (mixRows_apply _ rfl _ _ _ p j').trans ?_
  rw [shapeCast_self]
  rfl

/-- The third kernel's second result at (p, q): that normalised row through the output layer, then the softmax
    along the classes. -/
theorem layer2_y_at (x0 : Vec Ideal S400x10000 .f32) (x1 : Vec Ideal S10000x128 .bf16) (x2 : Vec Ideal S128x40 .f32)
    (x3 : Vec Ideal S1x40 .f32) (p : Fin 400) (q : Fin 40) :
    k2_pay2 (F := Ideal) x0 x1 x2 x3 (ix2 p q)
      = softRow (affineRow (unitRow (mixRow (fun k => x0 (ix2 p k)) (mat x1))) (mat x2) (row1 x3)) q := by
  unfold k2_pay2
  refine (softRows_apply _ _ _ _ _ _ _ p q).trans ?_
  refine congrArg (fun l => softRow l q) (funext fun q' => ?_)
  refine (affineRows_apply _ rfl _ _ x2 x3 _ _ p q').trans ?_
  exact congrArg (fun v => affineRow v (mat x2) (row1 x3) q') (funext fun j => layer2_h_at x0 x1 p j)

end Cert.KernelIdeal.Rows

end
-- ==== Proof.EncoderSpec.lean ====
/-
  The graph encoder both programs compute, row by row, over the extended reals.

  With features X [10000, 128], adjacency A [10000, 10000] and three dense layers (W1, b1), (W2, b2), (Wy, by):
  first every row of X is normalised and sent through the first layer; then each node r mixes the rows of that
  result with its row of A, keeps the positive part and applies the second layer; then each node mixes the rows
  of THAT result with its row of A and normalises: the embedding. The class scores are the embedding through the
  output layer, and a softmax along the classes. Row r of every stage depends on row r of A (and on whole
  earlier stages): that is why the kernel may compute 400 rows at a time.
-/
import proofs.«129005_g58506044506602_cont_9to1_m_1044_2_alg».proof.Proof.LibRowOps

noncomputable section

namespace Cert.Encoder

open Cert.RowOps

/-- First layer: the normalised feature rows through (W1, b1). -/
def layer1 (X : Fin 10000 → Fin 128 → EReal) (W1 : Fin 128 → Fin 128 → EReal) (b1 : Fin 128 → EReal)
    (r : Fin 10000) : Fin 128 → EReal :=
  affineRow (unitRow (X r)) W1 b1

/-- Second layer over an earlier stage T: node r's mix of T's rows, its positive part through (W2, b2). -/
def layer2 (A : Fin 10000 → Fin 10000 → EReal) (T : Fin 10000 → Fin 128 → EReal) (W2 : Fin 128 → Fin 128 → EReal)
    (b2 : Fin 128 → EReal) (r : Fin 10000) : Fin 128 → EReal :=
  affineRow (reluRow (mixRow (A r) T)) W2 b2

/-- The embedding over an earlier stage T: node r's mix of T's rows, normalised. -/
def embedRow (A : Fin 10000 → Fin 10000 → EReal) (T : Fin 10000 → Fin 128 → EReal) (r : Fin 10000) : Fin 128 → EReal :=
  unitRow (mixRow (A r) T)

/-- The class probabilities of an embedding h: its rows through (Wy, by), then the softmax along the classes. -/
def classRow (h : Fin 10000 → Fin 128 → EReal) (Wy : Fin 128 → Fin 40 → EReal) (bY : Fin 40 → EReal)
    (r : Fin 10000) : Fin 40 → EReal :=
  softRow (affineRow (h r) Wy bY)

/-- The embedding of the whole encoder. -/
def embedding (X : Fin 10000 → Fin 128 → EReal) (A : Fin 10000 → Fin 10000 → EReal) (W1 : Fin 128 → Fin 128 → EReal)
    (b1 : Fin 128 → EReal) (W2 : Fin 128 → Fin 128 → EReal) (b2 : Fin 128 → EReal) : Fin 10000 → Fin 128 → EReal :=
  embedRow A (layer2 A (layer1 X W1 b1) W2 b2)

/-- The class probabilities of the whole encoder. -/
def classes (X : Fin 10000 → Fin 128 → EReal) (A : Fin 10000 → Fin 10000 → EReal) (W1 : Fin 128 → Fin 128 → EReal)
    (b1 : Fin 128 → EReal) (W2 : Fin 128 → Fin 128 → EReal) (b2 : Fin 128 → EReal) (Wy : Fin 128 → Fin 40 → EReal)
    (bY : Fin 40 → EReal) : Fin 10000 → Fin 40 → EReal :=
  classRow (embedding X A W1 b1 W2 b2) Wy bY

end Cert.Encoder

end
-- ==== Proof.KernelArrays.lean ====
/-
  The arrays the three regions leave, as the encoder's stages of the arrays they found.

  Region 0 has one point and whole-array blocks: it leaves the first layer of the features it found. Regions 1
  and 2 walk the adjacency matrix 400 rows at a time: point t reads rows 400·t … 400·t + 399 of it and whole
  copies of everything else, and writes rows 400·t … 400·t + 399 of its results; entry (p, q) of what point t
  writes is the row function of row 400·t + p, so the 25 blocks are the 25 row bands of ONE array, and they
  cover it. Chained through the region boundaries (each region finds what the one before left, and every
  argument as launched; the bias rows are the bias arguments recast to one row), the two results are the
  encoder's embedding and class probabilities of the launch arguments.
-/
import proofs.«129005_g58506044506602_cont_9to1_m_1044_2_alg».proof.Proof.Gen.KernelIdeal.Frame
import proofs.«129005_g58506044506602_cont_9to1_m_1044_2_alg».proof.Proof.KernelPayloads
import proofs.«129005_g58506044506602_cont_9to1_m_1044_2_alg».proof.Proof.EncoderSpec
import Idealize.ShloMosaic.Lib.StableHlo.Run

set_option maxRecDepth 16384

noncomputable section

namespace Cert.KernelIdeal.Arrays

open Cert.KernelIdeal Cert.KernelIdeal.Gen Cert.KernelIdeal.Rows Cert.RowOps Cert.Encoder
open Idealize.ShloMosaic Idealize.ShloMosaic.TcCoe Idealize.ShloMosaic.ValueIdx Idealize.SL.Sem Idealize.ShloMosaic.StableHlo
open Idealize.ShloMosaic.Pipeline (Dat Cfg Window)

theorem hz : (![0, 0] : Fin 2 → Nat) = fun _ => 0 := funext fun a => by fin_cases a <;> rfl

/-! ## The printed index maps, decided over the grids -/

/-- Region 0: every block is the whole array. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Region 1: the adjacency and the result move down one row band per point; the rest stays whole. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Region 2: likewise, with two results. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Region 0 has a point. -/
theorem onto0 : ∃ t : Fin cfg0.N, t.val = 0 := (by decide +kernel : ∃ t : Fin grid0.N, t.val = 0)
/-- Regions 1 and 2 have the points 0 … 24, and no other. -/
theorem onto1 : ∀ q : Fin 25, ∃ t : Fin cfg1.N, t.val = q.val := (by decide +kernel : ∀ q : Fin 25, ∃ t : Fin grid1.N, t.val = q.val)
theorem onto2 : ∀ q : Fin 25, ∃ t : Fin cfg2.N, t.val = q.val := (by decide +kernel : ∀ q : Fin 25, ∃ t : Fin grid2.N, t.val = q.val)
theorem lt1 : ∀ t : Fin cfg1.N, t.val < 25 := (by decide +kernel : ∀ t : Fin grid1.N, t.val < 25)
theorem lt2 : ∀ t : Fin cfg2.N, t.val < 25 := (by decide +kernel : ∀ t : Fin grid2.N, t.val < 25)

/-- Row p of band t. -/
def bandRow (t : ℕ) (p : Fin 400) (ht : t < 25) : Fin 10000 := ⟨t * 400 + p.val, by omega⟩

section Regions

variable (V : (c : Dev nD) → (b : Ref sig .tc) → Buf (Elt Ideal) ((c : Thread nD τ).loc b))

/-! ## Region 0 -/

theorem blk0_0 (c : Dev nD) (t : Fin cfg0.N) : mat (iblk0 V c 0 t) = mat (V c main_arg0) := by
  funext r k
  show V c main_arg0 (((cfg0.win 0).blk t).view.emb (ix2 r k)) = V c main_arg0 (ix2 r k)
  refine congrArg _ (funext fun a => Fin.ext ?_)
  obtain ⟨e0, e1, -⟩ := idx_facts0 t
  match a with
  | ⟨0, _⟩ => show win0_0.index t (0 : Fin 2) * 10000 + 1 * r.val = r.val; rw [e0]; omega
  | ⟨1, _⟩ => show win0_0.index t (1 : Fin 2) * 128 + 1 * k.val = k.val; rw [e1]; omega

theorem blk0_1 (c : Dev nD) (t : Fin cfg0.N) : mat (iblk0 V c 1 t) = mat (V c main_arg2) := by
  funext r k
  show V c main_arg2 (((cfg0.win 1).blk t).view.emb (ix2 r k)) = V c main_arg2 (ix2 r k)
  refine congrArg _ (funext fun a => Fin.ext ?_)
  obtain ⟨-, -, e0, e1, -⟩ := idx_facts0 t
  match a with
  | ⟨0, _⟩ => show win0_1.index t (0 : Fin 2) * 128 + 1 * r.val = r.val; rw [e0]; omega
  | ⟨1, _⟩ => show win0_1.index t (1 : Fin 2) * 128 + 1 * k.val = k.val; rw [e1]; omega

theorem blk0_2 (c : Dev nD) (t : Fin cfg0.N) : row1 (iblk0 V c 2 t) = row1 (V c main_v0) := by
  funext k
  show V c main_v0 (((cfg0.win 2).blk t).view.emb (ix2 (0 : Fin 1) k)) = V c main_v0 (ix2 (0 : Fin 1) k)
  refine congrArg _ (funext fun a => Fin.ext ?_)
  obtain ⟨-, -, -, -, e0, e1, -⟩ := idx_facts0 t
  match a with
  | ⟨0, _⟩ => show win0_2.index t (0 : Fin 2) * 1 + 1 * 0 = 0; rw [e0]
  | ⟨1, _⟩ => show win0_2.index t (1 : Fin 2) * 128 + 1 * k.val = k.val; rw [e1]; omega

/-- What region 0 leaves in its result: the first layer of the features it found. -/
def first (c : Dev nD) : S10000x128.Idx → EReal :=
  arr2 (layer1 (mat (V c main_arg0)) (mat (V c main_arg2)) (row1 (V c main_v0)))

/-- What region 0's one point writes back is the whole of that array. -/
theorem flushed0 (c : Dev nD) (t : Fin cfg0.N) :
    (dat0 V c).flushed 3 t = ((cfg0.win 3).blk t).view.read (Elt Ideal) (first V c) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S1x128) hz]
  funext y
  obtain ⟨r, j, rfl⟩ : ∃ (r : Fin 10000) (j : Fin 128), y = ix2 r j := ⟨y 0, y 1, eq_ix2 y⟩
  show k0_pay1 (F := Ideal) (iblk0 V c 0 t) (iblk0 V c 1 t) (iblk0 V c 2 t) (ix2 r j)
    = first V c (((cfg0.win 3).blk t).view.emb (ix2 r j))
  have he : ((cfg0.win 3).blk t).view.emb (ix2 r j) = ix2 r j := by
    funext a; apply Fin.ext
    obtain ⟨-, -, -, -, -, -, e0, e1⟩ := idx_facts0 t
    match a with
    | ⟨0, _⟩ => show win0_3.index t (0 : Fin 2) * 10000 + 1 * r.val = r.val; rw [e0]; omega
    | ⟨1, _⟩ => show win0_3.index t (1 : Fin 2) * 128 + 1 * j.val = j.val; rw [e1]; omega
  rw [he]
  refine (prep_at (iblk0 V c 0 t) (iblk0 V c 1 t) (iblk0 V c 2 t) r j).trans ?_
  have h0 : (fun k => iblk0 V c 0 t (ix2 r k)) = mat (V c main_arg0) r := congrFun (blk0_0 V c t) r
  rw [h0, blk0_1 V c t, blk0_2 V c t]
  rfl

/-- Every index of the result is in the one block. -/
theorem cover0 (c : Dev nD) (i : S10000x128.Idx) :
    ∃ t : Fin cfg0.N, (cfg0.win 3).flush t = true ∧ i ∈ ((cfg0.win 3).blk t).view.set := by
  obtain ⟨t, -⟩ := onto0
  refine ⟨t, flush0_3 t, ?_⟩
  show i ∈ ((View.whole main_v3).slice (win0_3.rect t)).set
  rw [View.set_slice_whole, Rect.mem_set_unit]
  obtain ⟨-, -, -, -, -, -, e0, e1⟩ := idx_facts0 t
  intro a
  match a with
  | ⟨0, _⟩ =>
    show win0_3.index t (0 : Fin 2) * 10000 ≤ (i 0).val ∧ (i 0).val < win0_3.index t (0 : Fin 2) * 10000 + 10000
    have := idx2_lt0 i; rw [e0]; omega
  | ⟨1, _⟩ =>
    show win0_3.index t (1 : Fin 2) * 128 ≤ (i 1).val ∧ (i 1).val < win0_3.index t (1 : Fin 2) * 128 + 128
    have := idx2_lt1 i; rw [e1]; omega

/-- The result array after region 0. -/
theorem final0 (c : Dev nD) : (dat0 V c).arrAt 3 cfg0.N = first V c :=
  (dat0 V c).arrAt_eq_of_cover 3 (first V c) (fun t _ => flushed0 V c t) (cover0 c)

/-! ## Region 1 -/

theorem blk1_0 (c : Dev nD) (t : Fin cfg1.N) (p : Fin 400) :
    (fun k => iblk1 V c 0 t (ix2 p k)) = mat (V c main_arg1) (bandRow t.val p (lt1 t)) := by
  funext k
  show V c main_arg1 (((cfg1.win 0).blk t).view.emb (ix2 p k)) = V c main_arg1 (ix2 (bandRow t.val p (lt1 t)) k)
  refine congrArg _ (funext fun a => Fin.ext ?_)
  obtain ⟨e0, e1, -⟩ := idx_facts1 t
  match a with
  | ⟨0, _⟩ => show win1_0.index t (0 : Fin 2) * 400 + 1 * p.val = t.val * 400 + p.val; rw [e0]; omega
  | ⟨1, _⟩ => show win1_0.index t (1 : Fin 2) * 10000 + 1 * k.val = k.val; rw [e1]; omega

theorem blk1_1 (c : Dev nD) (t : Fin cfg1.N) : mat (iblk1 V c 1 t) = mat (V c main_v3) := by
  funext r k
  show V c main_v3 (((cfg1.win 1).blk t).view.emb (ix2 r k)) = V c main_v3 (ix2 r k)
  refine congrArg _ (funext fun a => Fin.ext ?_)
  obtain ⟨-, -, e0, e1, -⟩ := idx_facts1 t
  match a with
  | ⟨0, _⟩ => show win1_1.index t (0 : Fin 2) * 10000 + 1 * r.val = r.val; rw [e0]; omega
  | ⟨1, _⟩ => show win1_1.index t (1 : Fin 2) * 128 + 1 * k.val = k.val; rw [e1]; omega

theorem blk1_2 (c : Dev nD) (t : Fin cfg1.N) : mat (iblk1 V c 2 t) = mat (V c main_arg4) := by
  funext r k
  show V c main_arg4 (((cfg1.win 2).blk t).view.emb (ix2 r k)) = V c main_arg4 (ix2 r k)
  refine congrArg _ (funext fun a => Fin.ext ?_)
  obtain ⟨-, -, -, -, e0, e1, -⟩ := idx_facts1 t
  match a with
  | ⟨0, _⟩ => show win1_2.index t (0 : Fin 2) * 128 + 1 * r.val = r.val; rw [e0]; omega
  | ⟨1, _⟩ => show win1_2.index t (1 : Fin 2) * 128 + 1 * k.val = k.val; rw [e1]; omega

theorem blk1_3 (c : Dev nD) (t : Fin cfg1.N) : row1 (iblk1 V c 3 t) = row1 (V c main_v1) := by
  funext k
  show V c main_v1 (((cfg1.win 3).blk t).view.emb (ix2 (0 : Fin 1) k)) = V c main_v1 (ix2 (0 : Fin 1) k)
  refine congrArg _ (funext fun a => Fin.ext ?_)
  obtain ⟨-, -, -, -, -, -, e0, e1, -⟩ := idx_facts1 t
  match a with
  | ⟨0, _⟩ => show win1_3.index t (0 : Fin 2) * 1 + 1 * 0 = 0; rw [e0]
  | ⟨1, _⟩ => show win1_3.index t (1 : Fin 2) * 128 + 1 * k.val = k.val; rw [e1]; omega

/-- What region 1 leaves in its result: the second layer over the array it found in main_v3. -/
def second (c : Dev nD) : S10000x128.Idx → EReal :=
  arr2 (layer2 (mat (V c main_arg1)) (mat (V c main_v3)) (mat (V c main_arg4)) (row1 (V c main_v1)))

/-- What point t of region 1 writes back is row band t of that array. -/
theorem flushed1 (c : Dev nD) (t : Fin cfg1.N) :
    (dat1 V c).flushed 4 t = ((cfg1.win 4).blk t).view.read (Elt Ideal) (second V c) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz, View.ld_unit_zero (S := S128x128) hz,
    View.ld_unit_zero (S := S1x128) hz]
  funext y
  obtain ⟨p, q, rfl⟩ : ∃ (p : Fin 400) (q : Fin 128), y = ix2 p q := ⟨y 0, y 1, eq_ix2 y⟩
  show k1_pay1 (F := Ideal) (iblk1 V c 0 t) (iblk1 V c 1 t) (iblk1 V c 2 t) (iblk1 V c 3 t) (ix2 p q)
    = second V c (((cfg1.win 4).blk t).view.emb (ix2 p q))
  have he : ((cfg1.win 4).blk t).view.emb (ix2 p q) = ix2 (bandRow t.val p (lt1 t)) q := by
    funext a; apply Fin.ext
    obtain ⟨-, -, -, -, -, -, -, -, e0, e1⟩ := idx_facts1 t
    match a with
    | ⟨0, _⟩ => show win1_4.index t (0 : Fin 2) * 400 + 1 * p.val = t.val * 400 + p.val; rw [e0]; omega
    | ⟨1, _⟩ => show win1_4.index t (1 : Fin 2) * 128 + 1 * q.val = q.val; rw [e1]; omega
  rw [he]
  refine (layer1_at (iblk1 V c 0 t) (iblk1 V c 1 t) (iblk1 V c 2 t) (iblk1 V c 3 t) p q).trans ?_
  rw [blk1_0 V c t p, blk1_1 V c t, blk1_2 V c t, blk1_3 V c t]
  rfl

/-- Row r is in band r / 400. -/
theorem cover1 (c : Dev nD) (i : S10000x128.Idx) :
    ∃ t : Fin cfg1.N, (cfg1.win 4).flush t = true ∧ i ∈ ((cfg1.win 4).blk t).view.set := by
  have hi0 := idx2_lt0 i
  have hi1 := idx2_lt1 i
  obtain ⟨t, ht⟩ := onto1 ⟨(i 0).val / 400, by omega⟩
  have ht' : t.val = (i 0).val / 400 := ht
  refine ⟨t, flush1_4 t, ?_⟩
  show i ∈ ((View.whole main_v4).slice (win1_4.rect t)).set
  rw [View.set_slice_whole, Rect.mem_set_unit]
  obtain ⟨-, -, -, -, -, -, -, -, e0, e1⟩ := idx_facts1 t
  intro a
  match a with
  | ⟨0, _⟩ =>
    show win1_4.index t (0 : Fin 2) * 400 ≤ (i 0).val ∧ (i 0).val < win1_4.index t (0 : Fin 2) * 400 + 400
    rw [e0]; omega
  | ⟨1, _⟩ =>
    show win1_4.index t (1 : Fin 2) * 128 ≤ (i 1).val ∧ (i 1).val < win1_4.index t (1 : Fin 2) * 128 + 128
    rw [e1]; omega

/-- The result array after region 1. -/
theorem final1 (c : Dev nD) : (dat1 V c).arrAt 4 cfg1.N = second V c :=
  (dat1 V c).arrAt_eq_of_cover 4 (second V c) (fun t _ => flushed1 V c t) (cover1 c)

/-! ## Region 2 -/

theorem blk2_0 (c : Dev nD) (t : Fin cfg2.N) (p : Fin 400) :
    (fun k => iblk2 V c 0 t (ix2 p k)) = mat (V c main_arg1) (bandRow t.val p (lt2 t)) := by
  funext k
  show V c main_arg1 (((cfg2.win 0).blk t).view.emb (ix2 p k)) = V c main_arg1 (ix2 (bandRow t.val p (lt2 t)) k)
  refine congrArg _ (funext fun a => Fin.ext ?_)
  obtain ⟨e0, e1, -⟩ := idx_facts2 t
  match a with
  | ⟨0, _⟩ => show win2_0.index t (0 : Fin 2) * 400 + 1 * p.val = t.val * 400 + p.val; rw [e0]; omega
  | ⟨1, _⟩ => show win2_0.index t (1 : Fin 2) * 10000 + 1 * k.val = k.val; rw [e1]; omega

theorem blk2_1 (c : Dev nD) (t : Fin cfg2.N) : mat (iblk2 V c 1 t) = mat (V c main_v4) := by
  funext r k
  show V c main_v4 (((cfg2.win 1).blk t).view.emb (ix2 r k)) = V c main_v4 (ix2 r k)
  refine congrArg _ (funext fun a => Fin.ext ?_)
  obtain ⟨-, -, e0, e1, -⟩ := idx_facts2 t
  match a with
  | ⟨0, _⟩ => show win2_1.index t (0 : Fin 2) * 10000 + 1 * r.val = r.val; rw [e0]; omega
  | ⟨1, _⟩ => show win2_1.index t (1 : Fin 2) * 128 + 1 * k.val = k.val; rw [e1]; omega

theorem blk2_2 (c : Dev nD) (t : Fin cfg2.N) : mat (iblk2 V c 2 t) = mat (V c main_arg6) := by
  funext r k
  show V c main_arg6 (((cfg2.win 2).blk t).view.emb (ix2 r k)) = V c main_arg6 (ix2 r k)
  refine congrArg _ (funext fun a => Fin.ext ?_)
  obtain ⟨-, -, -, -, e0, e1, -⟩ := idx_facts2 t
  match a with
  | ⟨0, _⟩ => show win2_2.index t (0 : Fin 2) * 128 + 1 * r.val = r.val; rw [e0]; omega
  | ⟨1, _⟩ => show win2_2.index t (1 : Fin 2) * 40 + 1 * k.val = k.val; rw [e1]; omega

theorem blk2_3 (c : Dev nD) (t : Fin cfg2.N) : row1 (iblk2 V c 3 t) = row1 (V c main_v2) := by
  funext k
  show V c main_v2 (((cfg2.win 3).blk t).view.emb (ix2 (0 : Fin 1) k)) = V c main_v2 (ix2 (0 : Fin 1) k)
  refine congrArg _ (funext fun a => Fin.ext ?_)
  obtain ⟨-, -, -, -, -, -, e0, e1, -⟩ := idx_facts2 t
  match a with
  | ⟨0, _⟩ => show win2_3.index t (0 : Fin 2) * 1 + 1 * 0 = 0; rw [e0]
  | ⟨1, _⟩ => show win2_3.index t (1 : Fin 2) * 40 + 1 * k.val = k.val; rw [e1]; omega

/-- What region 2 leaves in its first result: the embedding over the array it found in main_v4. -/
def third (c : Dev nD) : S10000x128.Idx → EReal :=
  arr2 (embedRow (mat (V c main_arg1)) (mat (V c main_v4)))

/-- And in its second: the class probabilities of that embedding. -/
def fourth (c : Dev nD) : S10000x40.Idx → EReal :=
  arr2 (classRow (embedRow (mat (V c main_arg1)) (mat (V c main_v4))) (mat (V c main_arg6)) (row1 (V c main_v2)))

theorem flushed2h (c : Dev nD) (t : Fin cfg2.N) :
    (dat2 V c).flushed 4 t = ((cfg2.win 4).blk t).view.read (Elt Ideal) (third V c) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x128) hz]
  funext y
  obtain ⟨p, j, rfl⟩ : ∃ (p : Fin 400) (j : Fin 128), y = ix2 p j := ⟨y 0, y 1, eq_ix2 y⟩
  show k2_pay1 (F := Ideal) (iblk2 V c 0 t) (iblk2 V c 1 t) (ix2 p j)
    = third V c (((cfg2.win 4).blk t).view.emb (ix2 p j))
  have he : ((cfg2.win 4).blk t).view.emb (ix2 p j) = ix2 (bandRow t.val p (lt2 t)) j := by
    funext a; apply Fin.ext
    obtain ⟨-, -, -, -, -, -, -, -, e0, e1, -⟩ := idx_facts2 t
    match a with
    | ⟨0, _⟩ => show win2_4.index t (0 : Fin 2) * 400 + 1 * p.val = t.val * 400 + p.val; rw [e0]; omega
    | ⟨1, _⟩ => show win2_4.index t (1 : Fin 2) * 128 + 1 * j.val = j.val; rw [e1]; omega
  rw [he]
  refine (layer2_h_at (iblk2 V c 0 t) (iblk2 V c 1 t) p j).trans ?_
  rw [blk2_0 V c t p, blk2_1 V c t]
  rfl

theorem flushed2y (c : Dev nD) (t : Fin cfg2.N) :
    (dat2 V c).flushed 5 t = ((cfg2.win 5).blk t).view.read (Elt Ideal) (fourth V c) := by
  show (cfg2.win 5).cut (grid2.coords t) ((dat2 V c).after 5 t) = _
  rw [after2_5]
  unfold out2_5
  rw [View.canon_unit_zero hz]
  simp only [View.ld_unit_zero (S := S400x10000) hz, View.ld_unit_zero (S := S10000x128) hz, View.ld_unit_zero (S := S128x40) hz,
    View.ld_unit_zero (S := S1x40) hz]
  funext y
  obtain ⟨p, q, rfl⟩ : ∃ (p : Fin 400) (q : Fin 40), y = ix2 p q := ⟨y 0, y 1, eq_ix2 y⟩
  show k2_pay2 (F := Ideal) (iblk2 V c 0 t) (iblk2 V c 1 t) (iblk2 V c 2 t) (iblk2 V c 3 t) (ix2 p q)
    = fourth V c (((cfg2.win 5).blk t).view.emb (ix2 p q))
  have he : ((cfg2.win 5).blk t).view.emb (ix2 p q) = ix2 (bandRow t.val p (lt2 t)) q := by
    funext a; apply Fin.ext
    obtain ⟨-, -, -, -, -, -, -, -, -, -, e0, e1⟩ := idx_facts2 t
    match a with
    | ⟨0, _⟩ => show win2_5.index t (0 : Fin 2) * 400 + 1 * p.val = t.val * 400 + p.val; rw [e0]; omega
    | ⟨1, _⟩ => show win2_5.index t (1 : Fin 2) * 40 + 1 * q.val = q.val; rw [e1]; omega
  rw [he]
  refine (layer2_y_at (iblk2 V c 0 t) (iblk2 V c 1 t) (iblk2 V c 2 t) (iblk2 V c 3 t) p q).trans ?_
  rw [blk2_0 V c t p, blk2_1 V c t, blk2_2 V c t, blk2_3 V c t]
  rfl

theorem cover2h (c : Dev nD) (i : S10000x128.Idx) :
    ∃ t : Fin cfg2.N, (cfg2.win 4).flush t = true ∧ i ∈ ((cfg2.win 4).blk t).view.set := by
  have hi0 := idx2_lt0 i
  have hi1 := idx2_lt1 i
  obtain ⟨t, ht⟩ := onto2 ⟨(i 0).val / 400, by omega⟩
  have ht' : t.val = (i 0).val / 400 := ht
  refine ⟨t, flush2_4 t, ?_⟩
  show i ∈ ((View.whole main_v5_0).slice (win2_4.rect t)).set
  rw [View.set_slice_whole, Rect.mem_set_unit]
  obtain ⟨-, -, -, -, -, -, -, -, e0, e1, -⟩ := idx_facts2 t
  intro a
  match a with
  | ⟨0, _⟩ =>
    show win2_4.index t (0 : Fin 2) * 400 ≤ (i 0).val ∧ (i 0).val < win2_4.index t (0 : Fin 2) * 400 + 400
    rw [e0]; omega
  | ⟨1, _⟩ =>
    show win2_4.index t (1 : Fin 2) * 128 ≤ (i 1).val ∧ (i 1).val < win2_4.index t (1 : Fin 2) * 128 + 128
    rw [e1]; omega

theorem cover2y (c : Dev nD) (i : S10000x40.Idx) :
    ∃ t : Fin cfg2.N, (cfg2.win 5).flush t = true ∧ i ∈ ((cfg2.win 5).blk t).view.set := by
  have hi0 := idx2_lt0 i
  have hi1 := idx2_lt1 i
  obtain ⟨t, ht⟩ := onto2 ⟨(i 0).val / 400, by omega⟩
  have ht' : t.val = (i 0).val / 400 := ht
  refine ⟨t, flush2_5 t, ?_⟩
  show i ∈ ((View.whole main_v5_1).slice (win2_5.rect t)).set
  rw [View.set_slice_whole, Rect.mem_set_unit]
  obtain ⟨-, -, -, -, -, -, -, -, -, -, e0, e1⟩ := idx_facts2 t
  intro a
  match a with
  | ⟨0, _⟩ =>
    show win2_5.index t (0 : Fin 2) * 400 ≤ (i 0).val ∧ (i 0).val < win2_5.index t (0 : Fin 2) * 400 + 400
    rw [e0]; omega
  | ⟨1, _⟩ =>
    show win2_5.index t (1 : Fin 2) * 40 ≤ (i 1).val ∧ (i 1).val < win2_5.index t (1 : Fin 2) * 40 + 40
    rw [e1]; omega

/-- The two result arrays after region 2. -/
theorem final2h (c : Dev nD) : (dat2 V c).arrAt 4 cfg2.N = third V c :=
  (dat2 V c).arrAt_eq_of_cover 4 (third V c) (fun t _ => flushed2h V c t) (cover2h c)
theorem final2y (c : Dev nD) : (dat2 V c).arrAt 5 cfg2.N = fourth V c :=
  (dat2 V c).arrAt_eq_of_cover 5 (fourth V c) (fun t _ => flushed2y V c t) (cover2y c)

end Regions

/-! ## Through the region boundaries -/

section Chain

variable (m : (ℓ : Loc nD τ sig) → Buf (Elt Ideal) ℓ) (ρ : Dev nD → PrngReg)

/-- A buffer none of the three reshapes writes is, when region 0 is entered, as launched. -/
local macro "host_keeps" : tactic => `(tactic|
  exact StableHlo.after_of_forall_not_mem _ _ (List.forall_iff_forall_mem.mp (by
    simp only [hostOps0, List.flatten_cons, List.flatten_nil, List.append_nil, List.cons_append, List.nil_append, List.Forall,
      StableHlo.reshape_writes, Finset.mem_singleton]
    repeat' apply And.intro
    all_goals exact StableHlo.devRef_ne_of_ne (by decide))))

theorem W1_arg0 (c : Dev nD) : W1 m ρ c (Proc.devRef .tc main_arg0) = m ((c : Thread nD τ).loc main_arg0) := by host_keeps
theorem W1_arg1 (c : Dev nD) : W1 m ρ c (Proc.devRef .tc main_arg1) = m ((c : Thread nD τ).loc main_arg1) := by host_keeps
theorem W1_arg2 (c : Dev nD) : W1 m ρ c (Proc.devRef .tc main_arg2) = m ((c : Thread nD τ).loc main_arg2) := by host_keeps
theorem W1_arg4 (c : Dev nD) : W1 m ρ c (Proc.devRef .tc main_arg4) = m ((c : Thread nD τ).loc main_arg4) := by host_keeps
theorem W1_arg6 (c : Dev nD) : W1 m ρ c (Proc.devRef .tc main_arg6) = m ((c : Thread nD τ).loc main_arg6) := by host_keeps

/-- The three bias rows are the bias arguments recast to one row. -/
theorem W1_bias1 (c : Dev nD) : row1 (W1 m ρ c (Proc.devRef .tc main_v0)) = vec (m ((c : Thread nD τ).loc main_arg3)) := by
  funext k
  show StableHlo.after hostOps0 (W0 m ρ c) (Proc.devRef .tc main_v0) (ix2 (0 : Fin 1) k) = m ((c : Thread nD τ).loc main_arg3) (ix1 k)
  after_results
  exact shapeCast_a_1a_apply _ _ (0 : Fin 1) k
theorem W1_bias2 (c : Dev nD) : row1 (W1 m ρ c (Proc.devRef .tc main_v1)) = vec (m ((c : Thread nD τ).loc main_arg5)) := by
  funext k
  show StableHlo.after hostOps0 (W0 m ρ c) (Proc.devRef .tc main_v1) (ix2 (0 : Fin 1) k) = m ((c : Thread nD τ).loc main_arg5) (ix1 k)
  after_results
  exact shapeCast_a_1a_apply _ _ (0 : Fin 1) k
theorem W1_biasY (c : Dev nD) : row1 (W1 m ρ c (Proc.devRef .tc main_v2)) = vec (m ((c : Thread nD τ).loc main_arg7)) := by
  funext k
  show StableHlo.after hostOps0 (W0 m ρ c) (Proc.devRef .tc main_v2) (ix2 (0 : Fin 1) k) = m ((c : Thread nD τ).loc main_arg7) (ix1 k)
  after_results
  exact shapeCast_a_1a_apply _ _ (0 : Fin 1) k

/-- Region 0 leaves the first layer of the launch arguments. -/
theorem first_launch (c : Dev nD) :
    first (V1 m ρ) c = arr2 (layer1 (mat (m ((c : Thread nD τ).loc main_arg0))) (mat (m ((c : Thread nD τ).loc main_arg2))) (vec (m ((c : Thread nD τ).loc main_arg3)))) := by
  unfold first
  show arr2 (layer1 (mat (W1 m ρ c (Proc.devRef .tc main_arg0))) (mat (W1 m ρ c (Proc.devRef .tc main_arg2)))
    (row1 (W1 m ρ c (Proc.devRef .tc main_v0)))) = _
  rw [W1_arg0, W1_arg2, W1_bias1]

/-- What region 1 finds. -/
theorem V2_adj (c : Dev nD) : V2 m ρ c main_arg1 = m ((c : Thread nD τ).loc main_arg1) :=
  (W2_of_ne m ρ c main_arg1 (by decide)).trans (W1_arg1 m ρ c)
theorem V2_first (c : Dev nD) : V2 m ρ c main_v3 = first (V1 m ρ) c :=
  (W2_arr m ρ c 3).trans (final0 (V1 m ρ) c)
theorem V2_w2 (c : Dev nD) : V2 m ρ c main_arg4 = m ((c : Thread nD τ).loc main_arg4) :=
  (W2_of_ne m ρ c main_arg4 (by decide)).trans (W1_arg4 m ρ c)
theorem V2_bias (c : Dev nD) : row1 (V2 m ρ c main_v1) = vec (m ((c : Thread nD τ).loc main_arg5)) := by
  show row1 (W2 m ρ c (Proc.devRef .tc main_v1)) = _
  rw [W2_of_ne m ρ c main_v1 (by decide)]
  exact W1_bias2 m ρ c

/-- Region 1 leaves the second layer of the launch arguments. -/
theorem second_launch (c : Dev nD) :
    second (V2 m ρ) c = arr2 (layer2 (mat (m ((c : Thread nD τ).loc main_arg1)))
      (layer1 (mat (m ((c : Thread nD τ).loc main_arg0))) (mat (m ((c : Thread nD τ).loc main_arg2))) (vec (m ((c : Thread nD τ).loc main_arg3))))
      (mat (m ((c : Thread nD τ).loc main_arg4))) (vec (m ((c : Thread nD τ).loc main_arg5)))) := by
  unfold second
  rw [V2_adj, V2_first, V2_w2, V2_bias, first_launch, mat_arr2]

/-- What region 2 finds. -/
theorem V3_adj (c : Dev nD) : V3 m ρ c main_arg1 = m ((c : Thread nD τ).loc main_arg1) :=
  ((W3_arr m ρ c 0).trans (((dat1 (V2 m ρ) c).arrAt_in 0 rfl _).trans (A_eq1 (V2 m ρ) c 0))).trans (V2_adj m ρ c)
theorem V3_second (c : Dev nD) : V3 m ρ c main_v4 = second (V2 m ρ) c :=
  (W3_arr m ρ c 4).trans (final1 (V2 m ρ) c)
theorem V3_wy (c : Dev nD) : V3 m ρ c main_arg6 = m ((c : Thread nD τ).loc main_arg6) :=
  (W3_of_ne m ρ c main_arg6 (by decide)).trans ((W2_of_ne m ρ c main_arg6 (by decide)).trans (W1_arg6 m ρ c))
theorem V3_bias (c : Dev nD) : row1 (V3 m ρ c main_v2) = vec (m ((c : Thread nD τ).loc main_arg7)) := by
  show row1 (W3 m ρ c (Proc.devRef .tc main_v2)) = _
  rw [W3_of_ne m ρ c main_v2 (by decide), W2_of_ne m ρ c main_v2 (by decide)]
  exact W1_biasY m ρ c

/-- THE FIRST RESULT after the run: the encoder's embedding of the launch arguments. -/
theorem result_embedding (c : Dev nD) :
    W4 m ρ c (Proc.devRef .tc main_v5_0)
      = arr2 (embedding (mat (m ((c : Thread nD τ).loc main_arg0))) (mat (m ((c : Thread nD τ).loc main_arg1))) (mat (m ((c : Thread nD τ).loc main_arg2)))
          (vec (m ((c : Thread nD τ).loc main_arg3))) (mat (m ((c : Thread nD τ).loc main_arg4))) (vec (m ((c : Thread nD τ).loc main_arg5)))) := by
  refine ((W4_arr m ρ c 4).trans (final2h (V3 m ρ) c)).trans ?_
  unfold third
  rw [V3_adj, V3_second, second_launch, mat_arr2]
  rfl

/-- THE SECOND RESULT after the run: the encoder's class probabilities of the launch arguments. -/
theorem result_classes (c : Dev nD) :
    W4 m ρ c (Proc.devRef .tc main_v5_1)
      = arr2 (classes (mat (m ((c : Thread nD τ).loc main_arg0))) (mat (m ((c : Thread nD τ).loc main_arg1))) (mat (m ((c : Thread nD τ).loc main_arg2)))
          (vec (m ((c : Thread nD τ).loc main_arg3))) (mat (m ((c : Thread nD τ).loc main_arg4))) (vec (m ((c : Thread nD τ).loc main_arg5)))
          (mat (m ((c : Thread nD τ).loc main_arg6))) (vec (m ((c : Thread nD τ).loc main_arg7)))) := by
  refine ((W4_arr m ρ c 5).trans (final2y (V3 m ρ) c)).trans ?_
  unfold fourth
  rw [V3_adj, V3_second, V3_wy, V3_bias, second_launch, mat_arr2]
  rfl

end Chain

end Cert.KernelIdeal.Arrays

end
-- ==== Proof.RefValue.lean ====
/-
  The reference, stage by stage, is the encoder of EncoderSpec.

  The reference is one straight line of whole-array operations. Read at an entry (r, j), each of its stages is
  the corresponding row function of row r: a sum over the lanes is the sum of the row's entries, a product of
  matrices the sum over the contracted coordinate, a broadcast of a column or of a bias row reads that column or
  row, the maximum-reduce along the classes the running maximum of the row — and the one extra maximum against
  −∞ that jax's softmax writes changes nothing.
-/
import proofs.«129005_g58506044506602_cont_9to1_m_1044_2_alg».proof.Proof.Gen.ReferenceIdeal.Read
import proofs.«129005_g58506044506602_cont_9to1_m_1044_2_alg».proof.Proof.EncoderSpec

noncomputable section

namespace Cert.ReferenceIdeal.Rows

open Cert.ReferenceIdeal Cert.ReferenceIdeal.Read Cert.RowOps Cert.Encoder
open Idealize.ShloMosaic Idealize.ShloMosaic.ValueIdx

/-! ## The composed index maps, by coordinates -/

theorem e_l8 (r : Fin 10000) (j k : Fin 128) : lidx_main_v8 (ix2 r j) k = ix2 r k := funext fun a => Fin.ext (by match a with | ⟨0, _⟩ => rfl | ⟨1, _⟩ => rfl)
theorem e_r8 (r : Fin 10000) (j k : Fin 128) : ridx_main_v8 (ix2 r j) k = ix2 k j := funext fun a => Fin.ext (by match a with | ⟨0, _⟩ => rfl | ⟨1, _⟩ => rfl)
theorem e_b1 (r : Fin 10000) (j : Fin 128) : idx_main_v9 (idx_main_v10 (ix2 r j)) = ix1 j := funext fun a => Fin.ext (by match a with | ⟨0, _⟩ => rfl)
theorem e_n1 (r : Fin 10000) (k k' : Fin 128) : idx_main_v1 (idx_main_v2 (idx_main_v6 (ix2 r k))) k' = ix2 r k' := funext fun a => Fin.ext (by match a with | ⟨0, _⟩ => rfl | ⟨1, _⟩ => rfl)
theorem e_l12 (r : Fin 10000) (j : Fin 128) (k : Fin 10000) : lidx_main_v12 (ix2 r j) k = ix2 r k := funext fun a => Fin.ext (by match a with | ⟨0, _⟩ => rfl | ⟨1, _⟩ => rfl)
theorem e_r12 (r : Fin 10000) (j : Fin 128) (k : Fin 10000) : ridx_main_v12 (ix2 r j) k = ix2 k j := funext fun a => Fin.ext (by match a with | ⟨0, _⟩ => rfl | ⟨1, _⟩ => rfl)
theorem e_l15 (r : Fin 10000) (q k : Fin 128) : lidx_main_v15 (ix2 r q) k = ix2 r k := funext fun a => Fin.ext (by match a with | ⟨0, _⟩ => rfl | ⟨1, _⟩ => rfl)
theorem e_r15 (r : Fin 10000) (q k : Fin 128) : ridx_main_v15 (ix2 r q) k = ix2 k q := funext fun a => Fin.ext (by match a with | ⟨0, _⟩ => rfl | ⟨1, _⟩ => rfl)
theorem e_b2 (r : Fin 10000) (q : Fin 128) : idx_main_v16 (idx_main_v17 (ix2 r q)) = ix1 q := funext fun a => Fin.ext (by match a with | ⟨0, _⟩ => rfl)
theorem e_l19 (r : Fin 10000) (j : Fin 128) (k : Fin 10000) : lidx_main_v19 (ix2 r j) k = ix2 r k := funext fun a => Fin.ext (by match a with | ⟨0, _⟩ => rfl | ⟨1, _⟩ => rfl)
theorem e_r19 (r : Fin 10000) (j : Fin 128) (k : Fin 10000) : ridx_main_v19 (ix2 r j) k = ix2 k j := funext fun a => Fin.ext (by match a with | ⟨0, _⟩ => rfl | ⟨1, _⟩ => rfl)
theorem e_n2 (r : Fin 10000) (k k' : Fin 128) : idx_main_v21 (idx_main_v22 (idx_main_v26 (ix2 r k))) k' = ix2 r k' := funext fun a => Fin.ext (by match a with | ⟨0, _⟩ => rfl | ⟨1, _⟩ => rfl)
theorem e_l28 (r : Fin 10000) (q : Fin 40) (k : Fin 128) : lidx_main_v28 (ix2 r q) k = ix2 r k := funext fun a => Fin.ext (by match a with | ⟨0, _⟩ => rfl | ⟨1, _⟩ => rfl)
theorem e_r28 (r : Fin 10000) (q : Fin 40) (k : Fin 128) : ridx_main_v28 (ix2 r q) k = ix2 k q := funext fun a => Fin.ext (by match a with | ⟨0, _⟩ => rfl | ⟨1, _⟩ => rfl)
theorem e_by (r : Fin 10000) (q : Fin 40) : idx_main_v29 (idx_main_v30 (ix2 r q)) = ix1 q := funext fun a => Fin.ext (by match a with | ⟨0, _⟩ => rfl)
theorem e_mx (r : Fin 10000) (q : Fin 40) : idx_main_v35 (idx_main_v36 (ix2 r q)) = ix1 r := funext fun a => Fin.ext (by match a with | ⟨0, _⟩ => rfl)
theorem e_sm (r : Fin 10000) (q q' : Fin 40) : idx_main_v39 (idx_main_v40 (idx_main_v41 (ix2 r q))) q' = ix2 r q' := funext fun a => Fin.ext (by match a with | ⟨0, _⟩ => rfl | ⟨1, _⟩ => rfl)

/-! ## The stages -/

/-- The normalised features at (r, k). -/
theorem unit1_at (x0 : (⟨S10000x128, .f32⟩ : BufTy).Contents (Elt Ideal)) (r : Fin 10000) (k : Fin 128) :
    val_main_v7 (F := Ideal) x0 (ix2 r k) = unitRow (mat x0 r) k := by
  rw [val_main_v7_apply, val_main_v6_apply, val_main_v5_apply, val_main_v3_apply, val_main_v2_apply, val_main_v1_apply,
    val_main_v4_apply, val_main_cst_0_apply, val_main_cst_apply]
  simp only [val_main_v0_apply, e_n1]
  simp only [Ideal.hostDivf_def, Ideal.maximumf_def, Ideal.hostUnary_sqrt_def, Ideal.mulf_def, Ideal.ofBits_def,
    Ideal.ofBits_zero_f32, zero_add]
  rfl

/-- The first layer. -/
theorem layer1_eq (x0 : (⟨S10000x128, .f32⟩ : BufTy).Contents (Elt Ideal)) (x2 : (⟨S128x128, .f32⟩ : BufTy).Contents (Elt Ideal)) (x3 : (⟨S128, .f32⟩ : BufTy).Contents (Elt Ideal)) :
    val_main_v11 (F := Ideal) x0 x2 x3 = arr2 (layer1 (mat x0) (mat x2) (vec x3)) := by
  funext i
  obtain ⟨r, j, rfl⟩ : ∃ (r : Fin 10000) (j : Fin 128), i = ix2 r j := ⟨i 0, i 1, eq_ix2 i⟩
  rw [val_main_v11_apply, val_main_v8_apply, val_main_v10_apply, val_main_v9_apply]
  simp only [e_l8, e_r8, e_b1, unit1_at]
  rfl

/-- The second layer. -/
theorem layer2_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v18 (F := Ideal) x0 x1 x2 x3 x4 x5
      = arr2 (layer2 (mat x1) (layer1 (mat x0) (mat x2) (vec x3)) (mat x4) (vec x5)) := by
  funext i
  obtain ⟨r, q, rfl⟩ : ∃ (r : Fin 10000) (q : Fin 128), i = ix2 r q := ⟨i 0, i 1, eq_ix2 i⟩
  rw [val_main_v18_apply, val_main_v15_apply, val_main_v17_apply, val_main_v16_apply]
  simp only [val_main_v14_apply, val_main_v12_apply, val_main_v13_apply, val_main_cst_1_apply, e_l15, e_r15, e_l12, e_r12,
    e_b2, layer1_eq, arr2_ix2]
  simp only [Ideal.maximumf_def, Ideal.ofBits_def, Ideal.ofBits_zero_f32]
  rfl

/-- Node r's mix of the second layer's rows. -/
theorem mix2_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 10000) (j : Fin 128) :
    val_main_v19 (F := Ideal) x0 x1 x2 x3 x4 x5 (ix2 r j)
      = mixRow (mat x1 r) (layer2 (mat x1) (layer1 (mat x0) (mat x2) (vec x3)) (mat x4) (vec x5)) j := by
  rw [val_main_v19_apply]
  simp only [e_l19, e_r19, layer2_eq, arr2_ix2]
  rfl

/-- The embedding. -/
theorem embedding_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v27 (F := Ideal) x0 x1 x2 x3 x4 x5
      = arr2 (embedding (mat x0) (mat x1) (mat x2) (vec x3) (mat x4) (vec x5)) := by
  funext i
  obtain ⟨r, j, rfl⟩ : ∃ (r : Fin 10000) (j : Fin 128), i = ix2 r j := ⟨i 0, i 1, eq_ix2 i⟩
  rw [val_main_v27_apply, val_main_v26_apply, val_main_v25_apply, val_main_v23_apply, val_main_v22_apply,
    val_main_v21_apply, val_main_v24_apply, val_main_cst_3_apply, val_main_cst_2_apply]
  simp only [val_main_v20_apply, e_n2, mix2_at]
  simp only [Ideal.hostDivf_def, Ideal.maximumf_def, Ideal.hostUnary_sqrt_def, Ideal.mulf_def, Ideal.ofBits_def,
    Ideal.ofBits_zero_f32, zero_add]
  rfl

/-- The class scores at (r, q). -/
theorem scores_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal)) (r : Fin 10000) (q : Fin 40) :
    val_main_v31 (F := Ideal) x0 x1 x2 x3 x4 x5 x6 x7 (ix2 r q)
      = affineRow (embedding (mat x0) (mat x1) (mat x2) (vec x3) (mat x4) (vec x5) r) (mat x6) (vec x7) q := by
  rw [val_main_v31_apply, val_main_v28_apply, val_main_v30_apply, val_main_v29_apply]
  simp only [e_l28, e_r28, e_by, embedding_eq, arr2_ix2]
  rfl

/-- The largest score of node r; the maximum against −∞ in front of it changes nothing. -/
theorem scoreMax_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal)) (r : Fin 10000) :
    val_main_v34 (F := Ideal) x0 x1 x2 x3 x4 x5 x6 x7 (ix1 r)
      = rowMax (affineRow (embedding (mat x0) (mat x1) (mat x2) (vec x3) (mat x4) (vec x5) r) (mat x6) (vec x7)) := by
  rw [val_main_v34_apply, val_main_v33_apply, val_main_cst_5_apply]
  unfold val_main_v32
  rw [hostRowMax_apply _ _ _ (by decide) _ r, val_main_cst_4_apply]
  simp only [scores_at]
  exact max_negInf _

/-- The shifted exponentials at (r, q). -/
theorem expo_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal)) (r : Fin 10000) (q : Fin 40) :
    val_main_v38 (F := Ideal) x0 x1 x2 x3 x4 x5 x6 x7 (ix2 r q)
      = Ideal.exp (affineRow (embedding (mat x0) (mat x1) (mat x2) (vec x3) (mat x4) (vec x5) r) (mat x6) (vec x7) q
          - rowMax (affineRow (embedding (mat x0) (mat x1) (mat x2) (vec x3) (mat x4) (vec x5) r) (mat x6) (vec x7))) := by
  rw [val_main_v38_apply, val_main_v37_apply, val_main_v36_apply, val_main_v35_apply, e_mx, scoreMax_at, scores_at]
  rfl

/-- The class probabilities. -/
theorem classes_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal)) :
    val_main_v42 (F := Ideal) x0 x1 x2 x3 x4 x5 x6 x7
      = arr2 (classes (mat x0) (mat x1) (mat x2) (vec x3) (mat x4) (vec x5) (mat x6) (vec x7)) := by
  funext i
  obtain ⟨r, q, rfl⟩ : ∃ (r : Fin 10000) (q : Fin 40), i = ix2 r q := ⟨i 0, i 1, eq_ix2 i⟩
  rw [val_main_v42_apply, val_main_v41_apply, val_main_v40_apply, val_main_v39_apply, val_main_cst_6_apply]
  simp only [e_sm, expo_at]
  simp only [Ideal.hostDivf_def, Ideal.ofBits_def, Ideal.ofBits_zero_f32, zero_add]
  rfl

end Cert.ReferenceIdeal.Rows

end
-- ==== Proof.lean ====
/-
  A dense two-layer graph encoder: h = l2norm(A · (relu(A · (l2norm(X) · W1 + b1)) · W2 + b2)) and
  y = softmax(h · Wy + by), as three kernels against one line of whole-array operations.

  Over the extended reals the two programs apply the same operations to the same numbers: the kernels' narrowing
  of the two intermediate arrays and of the adjacency blocks to bf16 is the identity there, a kernel's matrix
  product into a zero accumulator and the reference's product are one sum over the contracted coordinate, and the
  floor under a norm is the same float on both sides. What differs is the arrangement: the reference works on whole
  arrays, the second and third kernels on bands of 400 rows of the adjacency matrix. Every stage acts on a matrix
  one row at a time — entry (r, j) of a stage depends on row r of the adjacency and on whole earlier stages — so a
  band of a stage is the stage of the band, the 25 bands a kernel writes are the 25 bands of ONE array, and that
  array is the reference's stage (Proof/LibRowOps.lean: the row functions and the vector operations read at an
  entry; Proof/EncoderSpec.lean: the stages; Proof/KernelPayloads.lean, Proof/KernelArrays.lean: the kernels;
  Proof/RefValue.lean: the reference). No law of arithmetic beyond reading each operation at an entry is used, so
  the finiteness of the inputs is never opened. The one operation the reference has and the kernel has not, a
  maximum of the row maximum against −∞, changes nothing.

  The frames of the two kernel programs are the generated ones; the reference's is its generated run with the
  results dropped; no rewrite was applied when the idealized kernel was printed, so nothing is owed for it.
-/
import proofs.«129005_g58506044506602_cont_9to1_m_1044_2_alg».proof.Defs
import proofs.«129005_g58506044506602_cont_9to1_m_1044_2_alg».proof.Proof.Gen.Kernel
import proofs.«129005_g58506044506602_cont_9to1_m_1044_2_alg».proof.Proof.Gen.Kernel.Frame
import proofs.«129005_g58506044506602_cont_9to1_m_1044_2_alg».proof.Proof.Gen.KernelIdeal
import proofs.«129005_g58506044506602_cont_9to1_m_1044_2_alg».proof.Proof.Gen.KernelIdeal.Frame
import proofs.«129005_g58506044506602_cont_9to1_m_1044_2_alg».proof.Proof.Gen.ReferenceIdeal
import proofs.«129005_g58506044506602_cont_9to1_m_1044_2_alg».proof.Proof.Gen.ReferenceIdeal.Run
import proofs.«129005_g58506044506602_cont_9to1_m_1044_2_alg».proof.Proof.Gen.ReferenceIdeal.Read
import proofs.«129005_g58506044506602_cont_9to1_m_1044_2_alg».proof.Proof.Gen.Pre_finite_inputs
import proofs.«129005_g58506044506602_cont_9to1_m_1044_2_alg».proof.Proof.KernelRun
import proofs.«129005_g58506044506602_cont_9to1_m_1044_2_alg».proof.Proof.KernelArrays
import proofs.«129005_g58506044506602_cont_9to1_m_1044_2_alg».proof.Proof.RefValue
import Idealize.ShloMosaic.Adequacy
import Idealize.ShloMosaic.Init

noncomputable section

namespace Cert.Proof

open Idealize.ShloMosaic Idealize.SL.Sem

namespace EncoderClaims

theorem frame_k : Cert.frame_Kernel := fun m ρ _ => Cert.Kernel.Gen.frame m ρ
theorem frame_ki : Cert.frame_KernelIdeal := fun m ρ _ => Cert.KernelIdeal.Gen.frame m ρ
/-- The reference's run ends with the arguments unchanged (and the two results at their terms, dropped here). -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the eight arguments both programs end with the embedding and the class
    probabilities of the encoder of those arguments: the kernel by the three regions' row bands, the reference
    stage by stage. -/
theorem algebraic : Cert.algebraic_KernelIdeal_ReferenceIdeal := by
  intro m ρ m' ρ' _ hagree
  refine ⟨_, _, (θ_run Cert.KernelIdeal.defs _ _).mono (fun r h c =>
      ⟨(h c).1.trans (Cert.KernelIdeal.Arrays.result_embedding m ρ c),
        (h c).2.1.trans (Cert.KernelIdeal.Arrays.result_classes m ρ c), (h c).2.2⟩)
      (Cert.KernelIdeal.Named.run_named (F := Ideal) m ρ), ?_⟩
  refine (θ_run Cert.ReferenceIdeal.defs _ _).mono (fun r h c => ?_) (Cert.ReferenceIdeal.Value.run (F := Ideal) m' ρ')
  obtain ⟨h0, h1, hargs⟩ := h c
  obtain ⟨e0, e1, e2, e3, e4, e5, e6, e7⟩ := hagree c
  refine ⟨?_, ?_, hargs⟩
  · rw [h0, Cert.ReferenceIdeal.Read.val_main_v27_eq, Cert.ReferenceIdeal.Rows.embedding_eq, e0, e1, e2, e3, e4, e5]
  · rw [h1, Cert.ReferenceIdeal.Read.val_main_v42_eq, Cert.ReferenceIdeal.Rows.classes_eq, e0, e1, e2, e3, e4, e5, e6, e7]

end EncoderClaims

theorem claim : Cert.Claim :=
  ⟨Cert.Kernel.Gen.facts, Cert.KernelIdeal.Gen.facts, Cert.ReferenceIdeal.Gen.facts, Cert.Pre_finite_inputs.Gen.facts,
    EncoderClaims.frame_k, EncoderClaims.frame_ki, EncoderClaims.frame_ri, EncoderClaims.preserves, EncoderClaims.algebraic⟩

end Cert.Proof

end
